-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S64 : Shape := ⟨1, ![64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x4096x1024 .f32) (main_arg1 : FVec F S64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x4096x1024 : Shape := ⟨3, ![8, 4096, 1024]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  shapeCasts_S1024_S1x1024 : S1024.ShapeCasts S1x1024
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S64 : Shape := ⟨1, ![64]⟩
abbrev S8x4096x16x64 : Shape := ⟨4, ![8, 4096, 16, 64]⟩
abbrev S1x1x1x64 : Shape := ⟨4, ![1, 1, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S64, .f32⟩
  | .hbm, ⟨2, _⟩ => ⟨S8x4096x16x64, .f32⟩
  | .hbm, ⟨3, _⟩ => ⟨S8x4096x16x64, .f32⟩
  | .hbm, ⟨4, _⟩ => ⟨S64, .f32⟩
  | .hbm, ⟨5, _⟩ => ⟨S1x1x1x64, .f32⟩
  | .hbm, ⟨6, _⟩ => ⟨S8x4096x16x64, .f32⟩
  | .hbm, ⟨7, _⟩ => ⟨S8x4096x16x64, .f32⟩
  | .hbm, ⟨8, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S8x4096x1024_S8x4096x16x64 : S8x4096x1024.ShapeCasts S8x4096x16x64
  bcast_S64_S1x1x1x64_3 : S64.BroadcastsInDim S1x1x1x64 (![3] : Fin 1 → Fin S1x1x1x64.rank)
  bcast_S1x1x1x64_S8x4096x16x64_0_1_2_3 : S1x1x1x64.BroadcastsInDim S8x4096x16x64 (![0, 1, 2, 3] : Fin 4 → Fin S8x4096x16x64.rank)
  shapeCasts_S8x4096x16x64_S8x4096x1024 : S8x4096x16x64.ShapeCasts S8x4096x1024

variable [Facts₀]

class Facts : Prop extends Facts₀ where

variable [Facts]
-- ==== Proof.Expectation.lean ====
/-
  What both programs compute, as one function of the two argument arrays.

  Each of the 1024 feature columns of a token is one qubit wire: starting from |0⟩ it is rotated about the x axis by the
  token's entry and about the y axis by the wire's trainable angle, and the Pauli-Z expectation of the result is
  cos x · cos θ. The sixteen heads share ONE vector of 64 angles, so feature column e uses angle e mod 64.
  Here a float is an extended real and cos is the exact cosine (with the convention the instance fixes at ±∞);
  no law of arithmetic is needed to join the two programs, only the bookkeeping of which entry each index reads.
-/
import Idealize.ShloMosaic.PureOps.Ideal
import Idealize.ShloMosaic.Lib.ValueIdx

noncomputable section

namespace Cert.WireExpectation

open Idealize.ShloMosaic Idealize.ShloMosaic.ValueIdx

/-- The angle feature column `e` uses: column `e` is wire `e mod 64` of head `e / 64`, and all heads share the angles. -/
def wire (e : Fin 1024) : Fin 64 := ⟨e.val % 64, Nat.mod_lt _ (by decide)⟩

/-- The expectation ⟨Z⟩ of every wire of every token: entry `(b, s, e)` is `cos x[b, s, e] · cos θ[e mod 64]`. -/
def expectZ (x : FVec Ideal ⟨3, ![8, 4096, 1024]⟩ .f32) (θ : FVec Ideal ⟨1, ![64]⟩ .f32) :
    FVec Ideal ⟨3, ![8, 4096, 1024]⟩ .f32 :=
  fun i => Ideal.cos (x i) * Ideal.cos (θ (ix1 (wire (i 2))))

/-- The same over the token axis flattened, with the angles' cosines already laid out as one row of 1024:
    entry `(r, e)` is `cos X[r, e] · C[0, e]`. This is the form the streamed kernel produces. -/
def rowsZ (X : FVec Ideal ⟨2, ![32768, 1024]⟩ .f32) (C : FVec Ideal ⟨2, ![1, 1024]⟩ .f32) :
    FVec Ideal ⟨2, ![32768, 1024]⟩ .f32 :=
  fun i => Ideal.cos (X i) * C (ix2 (0 : Fin 1) (i 1))

end Cert.WireExpectation

end
-- ==== Proof.KernelBlocks.lean ====
/-
  The streamed kernel, block by block. The token axis is flattened to 32768 rows and cut into 32 tiles of 1024 rows;
  at grid point t the body loads tile t of the rows and the ONE row of 1024 angle cosines, and stores
  cos(tile) · (that row broadcast down the tile). So entry (p, q) of what point t writes back is
  cos X[1024·t + p, q] · C[0, q]: tile t of the whole-array function `rowsZ X C`. The 32 tiles partition the rows
  (row r lies in tile r / 1024), hence after the run the output array IS `rowsZ X C`.
-/
import proofs.«122121_j65481071401834_1_alg».proof.Proof.Gen.KernelIdeal.Frame
import proofs.«122121_j65481071401834_1_alg».proof.Proof.Expectation
import Idealize.ShloMosaic.Lib.Pipeline.Value
import Idealize.ShloMosaic.Lib.ValueIdx
import Idealize.ShloMosaic.Lib.ValueLayout

set_option maxRecDepth 16384

noncomputable section

namespace Cert.KernelIdeal.Streamed

open Idealize.ShloMosaic Idealize.ShloMosaic.TcCoe Idealize.ShloMosaic.ValueIdx Idealize.SL.Sem
open Cert.KernelIdeal Cert.KernelIdeal.Gen Cert.WireExpectation
open Idealize.ShloMosaic.Pipeline (Dat)

variable (m : (ℓ : Loc nD τ sig) → Buf (Elt Ideal) ℓ) (ρ : Dev nD → PrngReg)

/-- Every access of the body starts at the tile's origin. -/
theorem origin : (![0, 0] : Fin 2 → Nat) = fun _ => 0 := funext fun a => by fin_cases a <;> rfl

/-- Entry `(p, q)` of the body's product: the cosine of the tile's entry times the angle row's entry in column `q`
    (the two same-shape casts are identities, and the row is broadcast down the 1024 rows of the tile). -/
theorem tile_entry (x0 : Vec Ideal S1024x1024 .f32) (x1 : Vec Ideal S1x1024 .f32) (p q : Fin 1024) :
    k0_pay1 x0 x1 (ix2 p q) = Ideal.cos (x0 (ix2 p q)) * x1 (ix2 (0 : Fin 1) q) := by
  unfold k0_pay1
  rw [shapeCast_self, shapeCast_self]
  exact congrArg (fun z : EReal => Ideal.cos (x0 (ix2 p q)) * z)
    (broadcastTo_1b_ab_apply (α := EReal) x1 broadcasts_S1x1024_S1024x1024 p q)

/-- The three index maps over the 32 grid points: the input tile and the output tile sit at the same block row and at
    block column 0, and the angle row is always block (0, 0). -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 block rows is some grid point's output tile. -/
theorem block_of_row : ∀ b : Fin 32, ∃ t : Fin cfg0.N, win0_2.index t = ![b.val, 0] :=
  (by decide +kernel : ∀ b : Fin 32, ∃ t : Fin grid0.N, win0_2.index t = ![b.val, 0])

/-- What grid point `t` writes back is tile `t` of `rowsZ` of the two arrays the region finds. -/
theorem flushed_eq (c : Dev nD) (t : Fin cfg0.N) :
    (dats m 0 c).flushed 2 t = ((cfg0.win 2).blk t).view.read (Elt Ideal) (rowsZ (V m c main_v5) (V m c main_v4)) := by
  show (cfg0.win 2).cut (grid0.coords t) ((dats m 0 c).after 2 t) = _
  rw [after0_2]
  unfold out0_2
  rw [View.canon_unit_zero origin]
  simp only [View.ld_unit_zero (S := S1024x1024) origin, View.ld_unit_zero (S := S1x1024) origin]
  obtain ⟨e0, e1, e2, e3, e4, e5⟩ := block_indices t
  funext j
  obtain ⟨p, q, rfl⟩ : ∃ (p : Fin 1024) (q : Fin 1024), j = ix2 p q := ⟨j 0, j 1, eq_ix2 j⟩
  refine (tile_entry (iblk m c 0 t) (iblk m c 1 t) p q).trans ?_
  show Ideal.cos (V m c main_v5 (((cfg0.win 0).blk t).view.emb (ix2 p q))) * V m c main_v4 (((cfg0.win 1).blk t).view.emb (ix2 (0 : Fin 1) q))
    = Ideal.cos (V m c main_v5 (((cfg0.win 2).blk t).view.emb (ix2 p q))) * V m c main_v4 (ix2 (0 : Fin 1) ((((cfg0.win 2).blk t).view.emb (ix2 p q)) 1))
  have h0 : ((cfg0.win 0).blk t).view.emb (ix2 p q) = ((cfg0.win 2).blk t).view.emb (ix2 p q) := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * q.val = win0_2.index t (1 : Fin 2) * 1024 + 1 * q.val; omega
  have h1 : ((cfg0.win 1).blk t).view.emb (ix2 (0 : Fin 1) q) = ix2 (0 : Fin 1) ((((cfg0.win 2).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 1024 + 1 * q.val = win0_2.index t (1 : Fin 2) * 1024 + 1 * q.val; omega
  rw [h0, h1]
  rfl

/-- An entry of the output array lies in point `t`'s tile iff each coordinate lies in the tile's range on its axis. -/
theorem mem_tile (t : Fin cfg0.N) (i : S32768x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v6).slice (win0_2.rect t)).set ↔ _
  rw [View.set_slice_whole, Rect.mem_set_unit]
  exact Iff.rfl

/-- The tiles cover the array: row `r` lies in the tile of block row `r / 1024`. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := block_of_row ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the output array is `rowsZ` of the flattened rows and the angle row, as the region found them. -/
theorem streamed (c : Dev nD) : (dats m 0 c).arrAt 2 cfg0.N = rowsZ (V m c main_v5) (V m c main_v4) :=
  (dats m 0 c).arrAt_eq_of_cover 2 _ (fun t _ => flushed_eq m c t) covered

end Cert.KernelIdeal.Streamed

end
-- ==== Proof.KernelValue.lean ====
/-
  The whole kernel program around its one streamed region.

  Before the region the host takes the cosines of the 64 angles and lays them out as one row of 1024 (the 64 values
  repeated for each of the 16 heads), and flattens batch and token of `x` into 32768 rows. The region leaves
  `rowsZ` of those two arrays (the block-by-block module). After the region the host splits the rows back into
  batch and token. Flattening and splitting keep the row-major position, so entry `(b, s, e)` of the result reads row
  `4096·b + s`, column `e`: `cos x[b, s, e]` times the row's entry `e`, and position `e` of the row holds head `e / 64`,
  wire `e mod 64`, that is `cos θ[e mod 64]`. So the program's result is the expectation of every wire.
-/
import proofs.«122121_j65481071401834_1_alg».proof.Proof.KernelBlocks
import Idealize.ShloMosaic.Lib.StableHlo.Run

set_option maxRecDepth 16384

noncomputable section

namespace Cert.KernelIdeal.Streamed

open Idealize.ShloMosaic Idealize.ShloMosaic.TcCoe Idealize.ShloMosaic.ValueIdx Idealize.SL.Sem
open Cert.KernelIdeal Cert.KernelIdeal.Gen Cert.WireExpectation
open Idealize.ShloMosaic.Pipeline (Dat)

/-! ## The two layouts, read at an index -/

/-- The row of angle cosines as the host lays it out: cosine, a unit axis in front, sixteen copies, the copies
    concatenated, a unit axis in front. -/
def angleRow (θ : FVec Ideal S64 .f32) : FVec Ideal S1x1024 .f32 :=
  shapeCast S1x1024 (shapeCast S1024 (broadcastInDim S16x64 ![0, 1] bcast_S1x64_S16x64_0_1
    (shapeCast S1x64 (Host.cos θ) shapeCasts_S64_S1x64)) shapeCasts_S16x64_S1024) shapeCasts_S1024_S1x1024

/-- Position `q` of the row is copy `q / 64`, entry `q mod 64`: the cosine of the angle of wire `q mod 64`. -/
theorem angleRow_apply (θ : FVec Ideal S64 .f32) (q : Fin 1024) :
    angleRow θ (ix2 (0 : Fin 1) q) = Ideal.cos (θ (ix1 (wire q))) := by
  have hq : q.val < 1024 := q.isLt
  unfold angleRow
  refine (shapeCast_a_1a_apply _ shapeCasts_S1024_S1x1024 (0 : Fin 1) q).trans ?_
  refine (shapeCast_apply _ shapeCasts_S16x64_S1024 (ix1 q) (ix2 (⟨q.val / 64, by omega⟩ : Fin 16) (wire q)) ?_).trans ?_
  · rewrite [Shape.rowMajor_val_two, Shape.rowMajor_val_one]
    show q.val / 64 * 64 + q.val % 64 = q.val
    omega
  refine (broadcastInDim_apply ![0, 1] bcast_S1x64_S16x64_0_1 _ (ix2 (⟨q.val / 64, by omega⟩ : Fin 16) (wire q))
    (ix2 (0 : Fin 1) (wire q)) (fun a => match a with
      | ⟨0, _⟩ => by show 0 = if (1 : Nat) = 1 then 0 else q.val / 64; rw [if_pos rfl]
      | ⟨1, _⟩ => by show q.val % 64 = if (64 : Nat) = 1 then 0 else q.val % 64; rw [if_neg (by decide)])).trans ?_
  refine (shapeCast_a_1a_apply _ shapeCasts_S64_S1x64 (0 : Fin 1) (wire q)).trans ?_
  rfl

/-- Entry `(b, s, e)` of the rows split back into batch and token, the rows being `rowsZ` of `x` flattened:
    `cos x[b, s, e]` times entry `e` of the angle row. -/
theorem split_entry (x : FVec Ideal S8x4096x1024 .f32) (C : FVec Ideal S1x1024 .f32) (i : S8x4096x1024.Idx) :
    shapeCast S8x4096x1024 (rowsZ (shapeCast S32768x1024 x shapeCasts_S8x4096x1024_S32768x1024) C)
        shapeCasts_S32768x1024_S8x4096x1024 i
      = Ideal.cos (x i) * C (ix2 (0 : Fin 1) (i 2)) := by
  have h0 : (i 0).val < 8 := (i 0).isLt
  have h1 : (i 1).val < 4096 := (i 1).isLt
  have h2 : (i 2).val < 1024 := (i 2).isLt
  refine (shapeCast_apply _ shapeCasts_S32768x1024_S8x4096x1024 i
    (ix2 (⟨(i 0).val * 4096 + (i 1).val, by omega⟩ : Fin 32768) (i 2)) ?_).trans ?_
  · rewrite [Shape.rowMajor_val_two, Shape.rowMajor_val_three]
    show ((i 0).val * 4096 + (i 1).val) * 1024 + (i 2).val = ((i 0).val * 4096 + (i 1).val) * 1024 + (i 2).val
    rfl
  exact congrArg (fun z : EReal => Ideal.cos z * C (ix2 (0 : Fin 1) (i 2)))
    (shapeCast_apply (α := EReal) x shapeCasts_S8x4096x1024_S32768x1024
      (ix2 (⟨(i 0).val * 4096 + (i 1).val, by omega⟩ : Fin 32768) (i 2)) i (by
        rewrite [Shape.rowMajor_val_three, Shape.rowMajor_val_two]
        show ((i 0).val * 4096 + (i 1).val) * 1024 + (i 2).val = ((i 0).val * 4096 + (i 1).val) * 1024 + (i 2).val
        rfl))

/-! ## The arrays the region finds, and the result after it -/

variable (m : (ℓ : Loc nD τ sig) → Buf (Elt Ideal) ℓ) (ρ : Dev nD → PrngReg)

/-- The region finds the rows of `x` flattened. -/
theorem rows_found (c : Dev nD) :
    (V m c main_v5 : S32768x1024.Idx → EReal)
      = shapeCast S32768x1024 (m ((c.tc : Thread nD τ).loc main_arg0)) shapeCasts_S8x4096x1024_S32768x1024 := by
  show StableHlo.after hostOps0 (fun b => m (c, b)) (Proc.devRef .tc main_v5) = _
  after_results
  rfl

/-- The region finds the row of angle cosines. -/
theorem angles_found (c : Dev nD) :
    (V m c main_v4 : S1x1024.Idx → EReal) = angleRow (m ((c.tc : Thread nD τ).loc main_arg1)) := by
  show StableHlo.after hostOps0 (fun b => m (c, b)) (Proc.devRef .tc main_v4) = _
  after_results
  rfl

/-- The program's result is the region's output array split back into batch and token. -/
theorem result_found (c : Dev nD) :
    (Pipeline.afterTail₀ cfgs (dats m) 0 (V0 m) [hostOps1] c main_v7 : S8x4096x1024.Idx → EReal)
      = shapeCast S8x4096x1024 ((dats m 0 c).arrAt 2 cfg0.N) shapeCasts_S32768x1024_S8x4096x1024 := by
  unfold Pipeline.afterTail₀
  show StableHlo.after hostOps1 _ (Proc.devRef .tc main_v7) = _
  after_results
  exact congrArg (fun z => shapeCast S8x4096x1024 z shapeCasts_S32768x1024_S8x4096x1024)
    (Pipeline.withArrays_arr spec0 launch0.win.arr_inj c _ _ 2)

/-- The program's result is the expectation of every wire. -/
theorem result_eq (c : Dev nD) :
    (Pipeline.afterTail₀ cfgs (dats m) 0 (V0 m) [hostOps1] c main_v7 : S8x4096x1024.Idx → EReal)
      = expectZ (m ((c.tc : Thread nD τ).loc main_arg0)) (m ((c.tc : Thread nD τ).loc main_arg1)) := by
  rw [result_found, streamed, rows_found, angles_found]
  funext i
  refine (split_entry _ _ i).trans ?_
  exact congrArg (fun z : EReal => Ideal.cos (m ((c.tc : Thread nD τ).loc main_arg0) i) * z)
    (angleRow_apply (m ((c.tc : Thread nD τ).loc main_arg1)) (i 2))

/-- Every weakly fair execution of the program terminates with its result at `expectZ` of the arguments and the
    arguments as they were. -/
theorem run : θ_run defs (onTc (τ := τ) (main (F := Ideal))) ⟨m, fun _ => 0, ρ⟩ fun r => ∀ c : Dev nD,
      r.2.mem ((c.tc : Thread nD τ).loc main_v7)
        = expectZ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Streamed

end
-- ==== Proof.ReferenceValue.lean ====
/-
  The reference splits the 1024 feature columns into 16 heads of 64 wires, takes the cosine of every entry, multiplies by
  the cosines of the 64 angles broadcast over batch, token and head, and merges the two axes again. Splitting and merging
  are inverse re-indexings (row-major position is kept), so entry `(b, s, e)` reads `x[b, s, e]`, and the broadcast reads
  the angle at the last coordinate of the split index, which is `e mod 64`.
-/
import proofs.«122121_j65481071401834_1_alg».proof.Proof.Gen.ReferenceIdeal.Read
import proofs.«122121_j65481071401834_1_alg».proof.Proof.Expectation

noncomputable section

namespace Cert.ReferenceIdeal.Expectation

open Idealize.ShloMosaic Idealize.ShloMosaic.ValueIdx Cert.ReferenceIdeal Cert.ReferenceIdeal.Read Cert.WireExpectation

/-- Merging the head and wire axes and splitting them again returns to the same entry of `x`. -/
theorem split_merge (i : S8x4096x1024.Idx) : idx_main_v0 (idx_main_v6 i) = i := by
  have h0 : (i 0).val < 8 := (i 0).isLt
  have h1 : (i 1).val < 4096 := (i 1).isLt
  have h2 : (i 2).val < 1024 := (i 2).isLt
  funext a
  apply Fin.ext
  match a with
  | ⟨0, _⟩ =>
    show ((((((i 0).val * 4096 + (i 1).val) * 1024 + (i 2).val) / 4194304 * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) / 4194304 = (i 0).val
    omega
  | ⟨1, _⟩ =>
    show ((((((i 0).val * 4096 + (i 1).val) * 1024 + (i 2).val) / 4194304 * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) / 1024 % 4096 = (i 1).val
    omega
  | ⟨2, _⟩ =>
    show ((((((i 0).val * 4096 + (i 1).val) * 1024 + (i 2).val) / 4194304 * 4096 + (((i 0).val * 4096 + (i 1).val) * 1024 + (i 2).val) / 1024 % 4096) * 16 + (((i 0).val * 4096 + (i 1).val) * 1024 + (i 2).val) / 64 % 16) * 64 + (((i 0).val * 4096 + (i 1).val) * 1024 + (i 2).val) % 64) % 1024 = (i 2).val
    omega

/-- The angle the broadcast hands entry `(b, s, e)` is the one of wire `e mod 64`. -/
theorem angle_index (i : S8x4096x1024.Idx) : idx_main_v3 (idx_main_v4 (idx_main_v6 i)) = ix1 (wire (i 2)) := by
  have h0 : (i 0).val < 8 := (i 0).isLt
  have h1 : (i 1).val < 4096 := (i 1).isLt
  have h2 : (i 2).val < 1024 := (i 2).isLt
  funext a
  apply Fin.ext
  match a with
  | ⟨0, _⟩ =>
    show (((i 0).val * 4096 + (i 1).val) * 1024 + (i 2).val) % 64 = (i 2).val % 64
    omega

/-- The reference's result is the expectation of every wire. -/
theorem result_eq (x : (⟨S8x4096x1024, .f32⟩ : BufTy).Contents (Elt Ideal)) (θ : (⟨S64, .f32⟩ : BufTy).Contents (Elt Ideal)) :
    val_main_v6 (F := Ideal) x θ = expectZ x θ := by
  funext i
  rw [val_main_v6_apply, val_main_v5_apply, val_main_v1_apply, val_main_v0_apply, val_main_v4_apply, val_main_v3_apply,
    val_main_v2_apply, split_merge, angle_index]
  rfl

end Cert.ReferenceIdeal.Expectation

end
-- ==== Proof.lean ====
/-
  The streamed kernel and the jnp reference compute the same array over the extended reals.

  Both are the Pauli-Z expectation of independent qubit wires: entry (b, s, e) is cos x[b, s, e] · cos θ[e mod 64], the 64
  angles shared by the sixteen heads (Proof/Expectation.lean, `expectZ`). The reference reaches it by splitting the
  feature axis into heads and wires and broadcasting the angles' cosines (Proof/ReferenceValue.lean). The kernel program
  lays the cosines of the angles out as one row of 1024 on the host, streams the flattened rows of x through 32 tiles,
  each multiplied entry by entry with that row (Proof/KernelBlocks.lean), and splits the rows back
  (Proof/KernelValue.lean). The two sides multiply the same two factors in the same order at every entry, so no law
  of extended-real arithmetic is used and the finiteness of the inputs is never opened; the whole argument is which
  entry each index reads. The idealization rewrote nothing, so `preserves` is trivial, and the three frames are the
  programs' runs with the results forgotten.
-/
import proofs.«122121_j65481071401834_1_alg».proof.Defs
import proofs.«122121_j65481071401834_1_alg».proof.Proof.Gen.Kernel
import proofs.«122121_j65481071401834_1_alg».proof.Proof.Gen.Kernel.Skeleton
import proofs.«122121_j65481071401834_1_alg».proof.Proof.Gen.Kernel.Launch
import proofs.«122121_j65481071401834_1_alg».proof.Proof.Gen.Kernel.Points
import proofs.«122121_j65481071401834_1_alg».proof.Proof.Gen.Kernel.Frame
import proofs.«122121_j65481071401834_1_alg».proof.Proof.Gen.KernelIdeal
import proofs.«122121_j65481071401834_1_alg».proof.Proof.Gen.KernelIdeal.Skeleton
import proofs.«122121_j65481071401834_1_alg».proof.Proof.Gen.KernelIdeal.Launch
import proofs.«122121_j65481071401834_1_alg».proof.Proof.Gen.KernelIdeal.Points
import proofs.«122121_j65481071401834_1_alg».proof.Proof.Gen.KernelIdeal.Frame
import proofs.«122121_j65481071401834_1_alg».proof.Proof.Gen.ReferenceIdeal
import proofs.«122121_j65481071401834_1_alg».proof.Proof.Gen.Pre_finite_inputs
import proofs.«122121_j65481071401834_1_alg».proof.Proof.Gen.ReferenceIdeal.Run
import proofs.«122121_j65481071401834_1_alg».proof.Proof.Gen.ReferenceIdeal.Read
import proofs.«122121_j65481071401834_1_alg».proof.Proof.KernelValue
import proofs.«122121_j65481071401834_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `θ`, both programs end with their result at `expectZ x θ`. -/
theorem algebraic : Cert.algebraic_KernelIdeal_ReferenceIdeal := by
  intro m ρ m' ρ' _ hagree
  refine ⟨fun c => Cert.WireExpectation.expectZ
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Streamed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Expectation.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
